-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32x64 : Shape := ⟨3, ![50000, 32, 64]⟩
abbrev S50000x32 : Shape := ⟨2, ![50000, 32]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x32x64 : S_.BroadcastsInDim S50000x32x64 (![] : Fin 0 → Fin S50000x32x64.rank)
  reducesTo_S50000x32x64_S_d0_1_2 : S50000x32x64.ReducesTo [0, 1, 2] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S50000x32x64 .f32) (main_arg2 : IVec S50000x32 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x32x64 .f32 := Host.absf main_arg1
  let main_cst_0 : FVec F S_ .f32 := constant S_ .f32 0x7F800000#32
  let main_v5 : FVec F S50000x32x64 .f32 := broadcastInDim S50000x32x64 ![] bcast_S_S50000x32x64 main_cst_0
  let main_v6 : IVec S50000x32x64 1 := cmpf .olt main_v4 main_v5
  let main_c_1 : IVec S_ 1 := constantI S_ 1 1#1
  let main_v7 : IVec S_ 1 := (fun x v => Host.reduce IntOp.andi x v reducesTo_S50000x32x64_S_d0_1_2 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S50000x32x64 : Shape := ⟨3, ![50000, 32, 64]⟩
abbrev S50000x32 : Shape := ⟨2, ![50000, 32]⟩
abbrev S64x128 : Shape := ⟨2, ![64, 128]⟩
abbrev S128 : Shape := ⟨1, ![128]⟩
abbrev S128x128 : Shape := ⟨2, ![128, 128]⟩
abbrev S_ : Shape := ⟨0, ![]⟩
abbrev S50000x32x1 : Shape := ⟨3, ![50000, 32, 1]⟩
abbrev S50000x32x128 : Shape := ⟨3, ![50000, 32, 128]⟩
abbrev S400x32x64 : Shape := ⟨3, ![400, 32, 64]⟩
abbrev S400x32x128 : Shape := ⟨3, ![400, 32, 128]⟩
abbrev S400x128 : Shape := ⟨2, ![400, 128]⟩
abbrev S12800x64 : Shape := ⟨2, ![12800, 64]⟩
abbrev S12800x128 : Shape := ⟨2, ![12800, 128]⟩
abbrev S1x128 : Shape := ⟨2, ![1, 128]⟩

abbrev nBuf : Space → Nat
  | .hbm => 21
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S50000x32x64, .f32⟩
  | .hbm, ⟨2, _⟩ => ⟨S50000x32, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S50000x32, .i32⟩
  | .hbm, ⟨13, _⟩ => ⟨S50000x32, .i1⟩
  | .hbm, ⟨14, _⟩ => ⟨S_, .i32⟩
  | .hbm, ⟨15, _⟩ => ⟨S50000x32, .i32⟩
  | .hbm, ⟨16, _⟩ => ⟨S50000x32, .i32⟩
  | .hbm, ⟨17, _⟩ => ⟨S50000x32, .i32⟩
  | .hbm, ⟨18, _⟩ => ⟨S50000x32x1, .i32⟩
  | .hbm, ⟨19, _⟩ => ⟨S50000x32x128, .f32⟩
  | .hbm, ⟨20, _⟩ => ⟨S50000x128, .f32⟩
  | .local _ .vmem, ⟨0, _⟩ => ⟨S400x32x64, .f32⟩
  | .local _ .vmem, ⟨1, _⟩ => ⟨S400x32x64, .f32⟩
  | .local _ .vmem, ⟨2, _⟩ => ⟨S400x32x128, .f32⟩
  | .local _ .vmem, ⟨3, _⟩ => ⟨S400x32x128, .f32⟩
  | .local _ .vmem, ⟨4, _⟩ => ⟨S64x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S400x128, .f32⟩
  | .local _ .vmem, ⟨13, _⟩ => ⟨S400x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S400x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  inb_S400x32x64_S400x32x64_0_0_0 : ∀ a, (![0, 0, 0] : Fin 3 → Nat) a + S400x32x64.size a ≤ S400x32x64.size a
  h_S400x32x64 : 0 < S400x32x64.numel
  bitsLt_bf16_f32 : FTy.bits .bf16 < FTy.bits .f32
  shapeCasts_S400x32x64_S12800x64 : S400x32x64.ShapeCasts S12800x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S12800x128 : S1x128.Broadcasts S12800x128
  inb_S128x128_S128x128_0_0 : ∀ a, (![0, 0] : Fin 2 → Nat) a + S128x128.size a ≤ S128x128.size a
  h_S128x128 : 0 < S128x128.numel
  shapeCasts_S12800x128_S400x32x128 : S12800x128.ShapeCasts S400x32x128
  inb_S400x32x128_S400x32x128_0_0_0 : ∀ a, (![0, 0, 0] : Fin 3 → Nat) a + S400x32x128.size a ≤ S400x32x128.size a
  h_S400x32x128 : 0 < S400x32x128.numel
  shapeCasts_S400x32x128_S400x32x128 : S400x32x128.ShapeCasts S400x32x128
  reduces_S400x32x128_S400x128 : S400x32x128.Reduces [1] S400x128
  broadcasts_S1x128_S400x128 : S1x128.Broadcasts S400x128
  inb_S400x128_S400x128_0_0 : ∀ a, (![0, 0] : Fin 2 → Nat) a + S400x128.size a ≤ S400x128.size a
  h_S400x128 : 0 < S400x128.numel
  gather_S50000x128_S50000x32x1_S50000x32x128_2_0_n_n_0_2_1128_wf : GatherDims.WF S50000x128 S50000x32x1 S50000x32x128 [2] [0] [] [0] [] 2 ![1, 128]
  dot_S12800x64_S64x128_S12800x128_1_0_0_1_n_n_wf : DotDims.WF S12800x64 S64x128 S12800x128 [1] [0] [0] [1] [] []
  dot_S12800x128_S128x128_S12800x128_1_0_0_1_n_n_wf : DotDims.WF S12800x128 S128x128 S12800x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x32x64.size a ≤ S50000x32x64.size a
  hwx0_0 : ∀ i : grid0.Coords, EltTy.bits .f32 = 32 ∨ (Rect.block (s := S50000x32x64) S400x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x32x128.size a ≤ S50000x32x128.size a
  hwx0_1 : ∀ i : grid0.Coords, EltTy.bits .f32 = 32 ∨ (Rect.block (s := S50000x32x128) S400x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x128.size a ≤ S50000x128.size a
  hwx0_10 : ∀ i : grid0.Coords, EltTy.bits .f32 = 32 ∨ (Rect.block (s := S50000x128) S400x128.size (cc0_transform_10 i) (hinb0_10 i)).WholeWords (EltTy.packing .f32)

variable [Facts₀]

def gather_S50000x128_S50000x32x1_S50000x32x128_2_0_n_n_0_2_1128 : GatherDims S50000x128 S50000x32x1 S50000x32x128 where
  offsetDims := [2]
  collapsedSliceDims := [0]
  operandBatchingDims := []
  startIndicesBatchingDims := []
  startIndexMap := [0]
  indexVectorDim := 2
  sliceSizes := ![1, 128]
  wf := gather_S50000x128_S50000x32x1_S50000x32x128_2_0_n_n_0_2_1128_wf
def dot_S12800x64_S64x128_S12800x128_1_0_0_1_n_n : DotDims S12800x64 S64x128 S12800x128 where
  lhsContracting := [1]
  rhsContracting := [0]
  lhsNonContracting := [0]
  rhsNonContracting := [1]
  lhsBatch := []
  rhsBatch := []
  wf := dot_S12800x64_S64x128_S12800x128_1_0_0_1_n_n_wf
def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S400x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S400x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x32x64 : Shape := ⟨3, ![50000, 32, 64]⟩
abbrev S50000x32 : Shape := ⟨2, ![50000, 32]⟩
abbrev S64x128 : Shape := ⟨2, ![64, 128]⟩
abbrev S128 : Shape := ⟨1, ![128]⟩
abbrev S128x128 : Shape := ⟨2, ![128, 128]⟩
abbrev S_ : Shape := ⟨0, ![]⟩
abbrev S50000x32x1 : Shape := ⟨3, ![50000, 32, 1]⟩
abbrev S50000x32x128 : Shape := ⟨3, ![50000, 32, 128]⟩
abbrev S1x1x128 : Shape := ⟨3, ![1, 1, 128]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32x64, .f32⟩
  | .hbm, ⟨2, _⟩ => ⟨S50000x32, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S50000x32, .i32⟩
  | .hbm, ⟨13, _⟩ => ⟨S50000x32, .i1⟩
  | .hbm, ⟨14, _⟩ => ⟨S_, .i32⟩
  | .hbm, ⟨15, _⟩ => ⟨S50000x32, .i32⟩
  | .hbm, ⟨16, _⟩ => ⟨S50000x32, .i32⟩
  | .hbm, ⟨17, _⟩ => ⟨S50000x32, .i32⟩
  | .hbm, ⟨18, _⟩ => ⟨S50000x32x1, .i32⟩
  | .hbm, ⟨19, _⟩ => ⟨S50000x32x128, .f32⟩
  | .hbm, ⟨20, _⟩ => ⟨S50000x32x128, .f32⟩
  | .hbm, ⟨21, _⟩ => ⟨S1x1x128, .f32⟩
  | .hbm, ⟨22, _⟩ => ⟨S50000x32x128, .f32⟩
  | .hbm, ⟨23, _⟩ => ⟨S50000x32x128, .f32⟩
  | .hbm, ⟨24, _⟩ => ⟨S50000x32x128, .f32⟩
  | .hbm, ⟨25, _⟩ => ⟨S50000x32x128, .f32⟩
  | .hbm, ⟨26, _⟩ => ⟨S_, .f32⟩
  | .hbm, ⟨27, _⟩ => ⟨S50000x32x128, .f32⟩
  | .hbm, ⟨28, _⟩ => ⟨S50000x32x128, .f32⟩
  | .hbm, ⟨29, _⟩ => ⟨S_, .f32⟩
  | .hbm, ⟨30, _⟩ => ⟨S50000x32x128, .f32⟩
  | .hbm, ⟨31, _⟩ => ⟨S50000x32x128, .f32⟩
  | .hbm, ⟨32, _⟩ => ⟨S50000x32x128, .f32⟩
  | .hbm, ⟨33, _⟩ => ⟨S50000x32x128, .f32⟩
  | .hbm, ⟨34, _⟩ => ⟨S1x1x128, .f32⟩
  | .hbm, ⟨35, _⟩ => ⟨S50000x32x128, .f32⟩
  | .hbm, ⟨36, _⟩ => ⟨S50000x32x128, .f32⟩
  | .hbm, ⟨37, _⟩ => ⟨S50000x32x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩

abbrev nD : Nat := 1
abbrev τ : Topo := Topo.v7x

variable {F : FTy → Type} [FloatOps F]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  bcast_S128_S1x1x128_2 : S128.BroadcastsInDim S1x1x128 (![2] : Fin 1 → Fin S1x1x128.rank)
  bcast_S1x1x128_S50000x32x128_0_1_2 : S1x1x128.BroadcastsInDim S50000x32x128 (![0, 1, 2] : Fin 3 → Fin S50000x32x128.rank)
  bcast_S_S50000x32x128 : S_.BroadcastsInDim S50000x32x128 (![] : Fin 0 → Fin S50000x32x128.rank)
  reducesTo_S50000x32x128_S50000x128_d1 : S50000x32x128.ReducesTo [1] S50000x128
  h_S_ : 0 < S_.numel
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x128_S50000x32x1_S50000x32x128_2_0_n_n_0_2_1128_wf : GatherDims.WF S50000x128 S50000x32x1 S50000x32x128 [2] [0] [] [0] [] 2 ![1, 128]
  dot_S50000x32x64_S64x128_S50000x32x128_2_0_01_1_n_n_wf : DotDims.WF S50000x32x64 S64x128 S50000x32x128 [2] [0] [0, 1] [1] [] []
  dot_S50000x32x128_S128x128_S50000x32x128_2_0_01_1_n_n_wf : DotDims.WF S50000x32x128 S128x128 S50000x32x128 [2] [0] [0, 1] [1] [] []
  dot_S50000x128_S128x128_S50000x128_1_0_0_1_n_n_wf : DotDims.WF S50000x128 S128x128 S50000x128 [1] [0] [0] [1] [] []

variable [Facts₀]

def gather_S50000x128_S50000x32x1_S50000x32x128_2_0_n_n_0_2_1128 : GatherDims S50000x128 S50000x32x1 S50000x32x128 where
  offsetDims := [2]
  collapsedSliceDims := [0]
  operandBatchingDims := []
  startIndicesBatchingDims := []
  startIndexMap := [0]
  indexVectorDim := 2
  sliceSizes := ![1, 128]
  wf := gather_S50000x128_S50000x32x1_S50000x32x128_2_0_n_n_0_2_1128_wf
def dot_S50000x32x64_S64x128_S50000x32x128_2_0_01_1_n_n : DotDims S50000x32x64 S64x128 S50000x32x128 where
  lhsContracting := [2]
  rhsContracting := [0]
  lhsNonContracting := [0, 1]
  rhsNonContracting := [1]
  lhsBatch := []
  rhsBatch := []
  wf := dot_S50000x32x64_S64x128_S50000x32x128_2_0_01_1_n_n_wf
def dot_S50000x32x128_S128x128_S50000x32x128_2_0_01_1_n_n : DotDims S50000x32x128 S128x128 S50000x32x128 where
  lhsContracting := [2]
  rhsContracting := [0]
  lhsNonContracting := [0, 1]
  rhsNonContracting := [1]
  lhsBatch := []
  rhsBatch := []
  wf := dot_S50000x32x128_S128x128_S50000x32x128_2_0_01_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RowSpec.lean ====
/-
  The interaction block of a continuous-filter graph network, read ONE NODE AT A TIME on the extended reals.

  A node has 32 neighbours. Each neighbour `a` carries an edge feature vector `e a : Fin 64 → EReal` and the
  representation `nb a : Fin 128 → EReal` of the node at the other end. A two-layer perceptron with a SiLU
  between its layers turns every edge feature into a filter (`hidden`, then `filt`); the node's message is
  the sum over its neighbours of the neighbour's representation times its filter, coordinate by coordinate
  (`message`); a second two-layer perceptron with SiLU maps the message to the node's output (`update`,
  then `out`). Every sum is a finite sum in the commutative monoid of the extended reals, in which no
  cancellation is ever used: the two programs compared in this certificate add the SAME products over the SAME
  index sets, so nothing here asks the inputs to be finite.

  `G` is the whole output array: row `n`, column `h` is `out` of node `n`'s edges and neighbours at `h`.
-/
import Idealize.ShloMosaic.PureOps.Ideal
import Idealize.ShloMosaic.PureOps.Ideal.Laws
import Idealize.ShloMosaic.PureOps.IdealRules
import Idealize.ShloMosaic.Lib.ValueIdx

noncomputable section

namespace Cert.Proof.Row

open Idealize.ShloMosaic Idealize.ShloMosaic.ValueIdx

/-- SiLU, `x · σ(x)` with `σ(x) = 1 / (1 + e^(-x))`, on the extended reals (`σ(⊥) = 0`, `σ(⊤) = 1`). -/
def silu (x : EReal) : EReal := x * Ideal.logistic x

/-- A matrix stored as a rank-2 array, as a function of its row and its column. -/
def mat {a b : ℕ} (w : FVec Ideal ⟨2, ![a, b]⟩ .f32) : Fin a → Fin b → EReal := fun i j => w (ix2 i j)

/-- A vector stored as a rank-1 array, as a function of its coordinate. -/
def vec {a : ℕ} (v : FVec Ideal ⟨1, ![a]⟩ .f32) : Fin a → EReal := fun i => v (ix1 i)

/-- Slab `r` of a rank-3 array, as a function of the two remaining coordinates. -/
def slab {n a b : ℕ} (x : FVec Ideal ⟨3, ![n, a, b]⟩ .f32) (r : Fin n) : Fin a → Fin b → EReal := fun i j => x (ix3 r i j)

section node

variable (w1 : Fin 64 → Fin 128 → EReal) (b1 : Fin 128 → EReal)
  (w2 : Fin 128 → Fin 128 → EReal) (b2 : Fin 128 → EReal)
  (u1 : Fin 128 → Fin 128 → EReal) (c1 : Fin 128 → EReal)
  (u2 : Fin 128 → Fin 128 → EReal) (c2 : Fin 128 → EReal)

/-- The filter network's hidden layer at neighbour `a`, unit `k`: `silu (∑ f, e a f · w1 f k + b1 k)`. -/
def hidden (e : Fin 32 → Fin 64 → EReal) (a : Fin 32) (k : Fin 128) : EReal :=
  silu ((∑ f : Fin 64, e a f * w1 f k) + b1 k)

/-- The filter of neighbour `a` at coordinate `j`: `∑ k, hidden a k · w2 k j + b2 j`. -/
def filt (e : Fin 32 → Fin 64 → EReal) (a : Fin 32) (j : Fin 128) : EReal :=
  (∑ k : Fin 128, hidden w1 b1 e a k * w2 k j) + b2 j

/-- The node's message at coordinate `j`: the neighbours' representations weighted by their filters, summed
    over the 32 neighbours. -/
def message (e : Fin 32 → Fin 64 → EReal) (nb : Fin 32 → Fin 128 → EReal) (j : Fin 128) : EReal :=
  ∑ a : Fin 32, nb a j * filt w1 b1 w2 b2 e a j

/-- The update network's hidden layer at unit `k`: `silu (∑ j, message j · u1 j k + c1 k)`. -/
def update (e : Fin 32 → Fin 64 → EReal) (nb : Fin 32 → Fin 128 → EReal) (k : Fin 128) : EReal :=
  silu ((∑ j : Fin 128, message w1 b1 w2 b2 e nb j * u1 j k) + c1 k)

/-- The node's output at coordinate `h`: `∑ k, update k · u2 k h + c2 h`. -/
def out (e : Fin 32 → Fin 64 → EReal) (nb : Fin 32 → Fin 128 → EReal) (h : Fin 128) : EReal :=
  (∑ k : Fin 128, update w1 b1 w2 b2 u1 c1 e nb k * u2 k h) + c2 h

end node

/-- The whole output: entry `(n, h)` is node `n`'s output at `h`, computed from slab `n` of the edge features
    `x` and slab `n` of the gathered neighbour representations `nb`. -/
def G (nb : FVec Ideal ⟨3, ![50000, 32, 128]⟩ .f32) (x : FVec Ideal ⟨3, ![50000, 32, 64]⟩ .f32)
    (w1 : FVec Ideal ⟨2, ![64, 128]⟩ .f32) (b1 : FVec Ideal ⟨1, ![128]⟩ .f32)
    (w2 : FVec Ideal ⟨2, ![128, 128]⟩ .f32) (b2 : FVec Ideal ⟨1, ![128]⟩ .f32)
    (u1 : FVec Ideal ⟨2, ![128, 128]⟩ .f32) (c1 : FVec Ideal ⟨1, ![128]⟩ .f32)
    (u2 : FVec Ideal ⟨2, ![128, 128]⟩ .f32) (c2 : FVec Ideal ⟨1, ![128]⟩ .f32) :
    FVec Ideal ⟨2, ![50000, 128]⟩ .f32 := fun i =>
  out (mat w1) (vec b1) (mat w2) (vec b2) (mat u1) (vec c1) (mat u2) (vec c2)
    (slab x ⟨(i 0).val, (i 0).isLt⟩) (slab nb ⟨(i 0).val, (i 0).isLt⟩) ⟨(i 1).val, (i 1).isLt⟩

/-- `G` at the index built from a row and a column. -/
theorem G_ix2 (nb : FVec Ideal ⟨3, ![50000, 32, 128]⟩ .f32) (x : FVec Ideal ⟨3, ![50000, 32, 64]⟩ .f32)
    (w1 : FVec Ideal ⟨2, ![64, 128]⟩ .f32) (b1 : FVec Ideal ⟨1, ![128]⟩ .f32)
    (w2 : FVec Ideal ⟨2, ![128, 128]⟩ .f32) (b2 : FVec Ideal ⟨1, ![128]⟩ .f32)
    (u1 : FVec Ideal ⟨2, ![128, 128]⟩ .f32) (c1 : FVec Ideal ⟨1, ![128]⟩ .f32)
    (u2 : FVec Ideal ⟨2, ![128, 128]⟩ .f32) (c2 : FVec Ideal ⟨1, ![128]⟩ .f32) (n : Fin 50000) (h : Fin 128) :
    G nb x w1 b1 w2 b2 u1 c1 u2 c2 (ix2 n h)
      = out (mat w1) (vec b1) (mat w2) (vec b2) (mat u1) (vec c1) (mat u2) (vec c2) (slab x n) (slab nb n) h := rfl

/-! ## SiLU as the two programs spell it -/

/-- The word `0x3F800000` is the float `1.0`, the real number one. -/
theorem one_word : Ideal.ofBits .f32 0x3F800000#32 = 1 := IdealRules.sign_bit.ideal_onePat .f32

/-- A kernel's `y · logistic y` is SiLU. -/
theorem silu_kernel (y : Ideal .f32) : FloatOps.mulf y (FloatOps.logistic y) = silu y := rfl

/-- The host's expansion `y · (1 / (1 + exp (-y)))`, with both ones the constant word `0x3F800000`, is SiLU: the
    logistic function IS that quotient on the extended reals. -/
theorem silu_host (y : Ideal .f32) :
    FloatOps.mulf y (FloatOps.hostDivf (Ideal.ofBits .f32 0x3F800000#32)
      (FloatOps.addf (Ideal.ofBits .f32 0x3F800000#32) (FloatOps.hostUnary .exp (FloatOps.hostNegf y)))) = silu y := by
  rw [one_word]; rfl

end Cert.Proof.Row

end
-- ==== Proof.RefIsRow.lean ====
/-
  The reference program, stage by stage, IS the per-node function of RowSpec.

  The reference computes, over the whole arrays: the filter network on the edge features (a contraction of
  axis 2 of [50000, 32, 64] against axis 0 of [64, 128], a bias along the last axis, SiLU, a second contraction
  against [128, 128] and a second bias), the product with the gathered neighbour representations, a sum over
  axis 1 (the 32 neighbours), and the update network (two contractions of axis 1 of [50000, 128] against
  [128, 128], each with a bias, SiLU between them). Read at the index `(n, a, k)` or `(n, h)` each stage is the
  corresponding node-level quantity of node `n`: a contraction is the sum over the contracted coordinate with
  the other coordinates held, a bias broadcast reads the bias at the last coordinate, the neighbour sum starts
  from the constant zero. The gathered array enters as the one opaque term `val_main_v6 x0 x2`; which rows it
  holds is never opened.
-/
import proofs.«165855_j30107720745193_1_alg».proof.Proof.Gen.ReferenceIdeal.Read
import proofs.«165855_j30107720745193_1_alg».proof.Proof.RowSpec

noncomputable section

namespace Cert.Proof.RefRow

open Cert.ReferenceIdeal Cert.ReferenceIdeal.Gen Cert.ReferenceIdeal.Read
open Idealize.ShloMosaic Idealize.ShloMosaic.ValueIdx Cert.Proof

variable (x0 : FVec Ideal S50000x128 .f32) (x1 : FVec Ideal S50000x32x64 .f32) (x2 : IVec S50000x32 32)
  (x3 : FVec Ideal S64x128 .f32) (x4 : FVec Ideal S128 .f32) (x5 : FVec Ideal S128x128 .f32) (x6 : FVec Ideal S128 .f32)
  (x7 : FVec Ideal S128x128 .f32) (x8 : FVec Ideal S128 .f32) (x9 : FVec Ideal S128x128 .f32) (x10 : FVec Ideal S128 .f32)

/-! ## Where each stage reads its operands -/

/-- First contraction, left operand: row `(n, a)` of the edge features at the contracted coordinate. -/
theorem lidx7 (n : Fin 50000) (a : Fin 32) (k : Fin 128) (f : Fin 64) : lidx_main_v7 (ix3 n a k) f = ix3 n a f :=
  funext fun d => Fin.ext (by match d with | ⟨0, _⟩ => rfl | ⟨1, _⟩ => rfl | ⟨2, _⟩ => rfl)
/-- First contraction, right operand: the weight at the contracted coordinate and the output unit. -/
theorem ridx7 (n : Fin 50000) (a : Fin 32) (k : Fin 128) (f : Fin 64) : ridx_main_v7 (ix3 n a k) f = ix2 f k :=
  funext fun d => Fin.ext (by match d with | ⟨0, _⟩ => rfl | ⟨1, _⟩ => rfl)
/-- A bias broadcast along the last of three axes reads the bias at the last coordinate. -/
theorem bidx9 (n : Fin 50000) (a : Fin 32) (k : Fin 128) : idx_main_v8 (idx_main_v9 (ix3 n a k)) = ix1 k :=
  funext fun d => Fin.ext (by match d with | ⟨0, _⟩ => rfl)
theorem lidx12 (n : Fin 50000) (a : Fin 32) (j : Fin 128) (k : Fin 128) : lidx_main_v12 (ix3 n a j) k = ix3 n a k :=
  funext fun d => Fin.ext (by match d with | ⟨0, _⟩ => rfl | ⟨1, _⟩ => rfl | ⟨2, _⟩ => rfl)
theorem ridx12 (n : Fin 50000) (a : Fin 32) (j : Fin 128) (k : Fin 128) : ridx_main_v12 (ix3 n a j) k = ix2 k j :=
  funext fun d => Fin.ext (by match d with | ⟨0, _⟩ => rfl | ⟨1, _⟩ => rfl)
theorem bidx14 (n : Fin 50000) (a : Fin 32) (j : Fin 128) : idx_main_v13 (idx_main_v14 (ix3 n a j)) = ix1 j :=
  funext fun d => Fin.ext (by match d with | ⟨0, _⟩ => rfl)
/-- The neighbour sum at `(n, j)` reads `(n, a, j)` for each neighbour `a`. -/
theorem idx17 (n : Fin 50000) (j : Fin 128) (a : Fin 32) : idx_main_v17 (ix2 n j) a = ix3 n a j :=
  funext fun d => Fin.ext (by match d with | ⟨0, _⟩ => rfl | ⟨1, _⟩ => rfl | ⟨2, _⟩ => rfl)
theorem lidx18 (n : Fin 50000) (k : Fin 128) (j : Fin 128) : lidx_main_v18 (ix2 n k) j = ix2 n j :=
  funext fun d => Fin.ext (by match d with | ⟨0, _⟩ => rfl | ⟨1, _⟩ => rfl)
theorem ridx18 (n : Fin 50000) (k : Fin 128) (j : Fin 128) : ridx_main_v18 (ix2 n k) j = ix2 j k :=
  funext fun d => Fin.ext (by match d with | ⟨0, _⟩ => rfl | ⟨1, _⟩ => rfl)
/-- A bias broadcast along the last of two axes reads the bias at the last coordinate. -/
theorem bidx20 (n : Fin 50000) (k : Fin 128) : idx_main_v19 (idx_main_v20 (ix2 n k)) = ix1 k :=
  funext fun d => Fin.ext (by match d with | ⟨0, _⟩ => rfl)
theorem lidx23 (n : Fin 50000) (h : Fin 128) (k : Fin 128) : lidx_main_v23 (ix2 n h) k = ix2 n k :=
  funext fun d => Fin.ext (by match d with | ⟨0, _⟩ => rfl | ⟨1, _⟩ => rfl)
theorem ridx23 (n : Fin 50000) (h : Fin 128) (k : Fin 128) : ridx_main_v23 (ix2 n h) k = ix2 k h :=
  funext fun d => Fin.ext (by match d with | ⟨0, _⟩ => rfl | ⟨1, _⟩ => rfl)
theorem bidx25 (n : Fin 50000) (h : Fin 128) : idx_main_v24 (idx_main_v25 (ix2 n h)) = ix1 h :=
  funext fun d => Fin.ext (by match d with | ⟨0, _⟩ => rfl)

/-! ## The stages -/

/-- The filter network's hidden layer: contraction with `x3`, bias `x4`, SiLU in the host's spelling. -/
theorem hidden_eq (n : Fin 50000) (a : Fin 32) (k : Fin 128) :
    val_main_v11 (F := Ideal) x1 x3 x4 (ix3 n a k) = Row.hidden (Row.mat x3) (Row.vec x4) (Row.slab x1 n) a k := by
  rw [val_main_v11_apply, val_main_call0_v5_apply, val_main_call0_v3_apply, val_main_call0_v1_apply,
    val_main_call0_v0_apply, val_main_call0_v4_apply, val_main_call0_v2_apply, val_main_call0_cst_0_apply,
    val_main_call0_cst_apply]
  refine (Row.silu_host _).trans ?_
  unfold Row.hidden
  refine congrArg Row.silu ?_
  rw [val_main_v10_apply, val_main_v7_apply, val_main_v9_apply, val_main_v8_apply, bidx9]
  refine congrArg (· + x4 (ix1 k)) (Finset.sum_congr rfl fun f _ => ?_)
  rw [lidx7, ridx7]; rfl

/-- The filter: contraction of the hidden layer with `x5`, bias `x6`. -/
theorem filt_eq (n : Fin 50000) (a : Fin 32) (j : Fin 128) :
    val_main_v15 (F := Ideal) x1 x3 x4 x5 x6 (ix3 n a j)
      = Row.filt (Row.mat x3) (Row.vec x4) (Row.mat x5) (Row.vec x6) (Row.slab x1 n) a j := by
  rw [val_main_v15_apply, val_main_v12_apply, val_main_v14_apply, val_main_v13_apply, bidx14]
  unfold Row.filt
  refine congrArg (· + x6 (ix1 j)) (Finset.sum_congr rfl fun k _ => ?_)
  rw [lidx12, ridx12, hidden_eq]; rfl

/-- The message: neighbour representation times filter, summed over the 32 neighbours from the constant zero. -/
theorem message_eq (n : Fin 50000) (j : Fin 128) :
    val_main_v17 (F := Ideal) x0 x1 x2 x3 x4 x5 x6 (ix2 n j)
      = Row.message (Row.mat x3) (Row.vec x4) (Row.mat x5) (Row.vec x6) (Row.slab x1 n)
          (Row.slab (val_main_v6 (F := Ideal) x0 x2) n) j := by
  rw [val_main_v17_apply, val_main_cst_apply]
  unfold Row.message
  refine (congrArg (· + _) Ideal.ofBits_zero_f32).trans ((zero_add _).trans (Finset.sum_congr rfl fun a _ => ?_))
  rw [idx17, val_main_v16_apply, filt_eq]; rfl

/-- The update network's hidden layer: contraction of the message with `x7`, bias `x8`, SiLU. -/
theorem update_eq (n : Fin 50000) (k : Fin 128) :
    val_main_v22 (F := Ideal) x0 x1 x2 x3 x4 x5 x6 x7 x8 (ix2 n k)
      = Row.update (Row.mat x3) (Row.vec x4) (Row.mat x5) (Row.vec x6) (Row.mat x7) (Row.vec x8) (Row.slab x1 n)
          (Row.slab (val_main_v6 (F := Ideal) x0 x2) n) k := by
  rw [val_main_v22_apply, val_main_call1_v5_apply, val_main_call1_v3_apply, val_main_call1_v1_apply,
    val_main_call1_v0_apply, val_main_call1_v4_apply, val_main_call1_v2_apply, val_main_call1_cst_0_apply,
    val_main_call1_cst_apply]
  refine (Row.silu_host _).trans ?_
  unfold Row.update
  refine congrArg Row.silu ?_
  rw [val_main_v21_apply, val_main_v18_apply, val_main_v20_apply, val_main_v19_apply, bidx20]
  refine congrArg (· + x8 (ix1 k)) (Finset.sum_congr rfl fun j _ => ?_)
  rw [lidx18, ridx18, message_eq]; rfl

/-- The output: contraction of the update layer with `x9`, bias `x10`. -/
theorem out_eq (n : Fin 50000) (h : Fin 128) :
    val_main_v26 (F := Ideal) x0 x1 x2 x3 x4 x5 x6 x7 x8 x9 x10 (ix2 n h)
      = Row.out (Row.mat x3) (Row.vec x4) (Row.mat x5) (Row.vec x6) (Row.mat x7) (Row.vec x8) (Row.mat x9) (Row.vec x10)
          (Row.slab x1 n) (Row.slab (val_main_v6 (F := Ideal) x0 x2) n) h := by
  rw [val_main_v26_apply, val_main_v23_apply, val_main_v25_apply, val_main_v24_apply, bidx25]
  unfold Row.out
  refine congrArg (· + x10 (ix1 h)) (Finset.sum_congr rfl fun k _ => ?_)
  rw [lidx23, ridx23, update_eq]; rfl

/-- The reference's result array is `G` of the gathered array, the edge features and the eight weights. -/
theorem result_eq :
    val_main_v26 (F := Ideal) x0 x1 x2 x3 x4 x5 x6 x7 x8 x9 x10
      = Row.G (val_main_v6 (F := Ideal) x0 x2) x1 x3 x4 x5 x6 x7 x8 x9 x10 := by
  funext i
  obtain ⟨n, h, rfl⟩ : ∃ (n : Fin 50000) (h : Fin 128), i = ix2 n h := ⟨i 0, i 1, eq_ix2 i⟩
  rw [out_eq, Row.G_ix2]

end Cert.Proof.RefRow

end
-- ==== Proof.KernelBlock.lean ====
/-
  One grid point of the kernel: what the body stores, as the per-node function of RowSpec.

  A grid point holds 400 nodes. The body flattens the block of edge features [400, 32, 64] to [12800, 64] — row
  `p · 32 + a` is neighbour `a` of node `p` —, multiplies by the first filter weight into a zero accumulator,
  adds the bias along the columns, applies `y · logistic y`, multiplies by the second filter weight, adds its
  bias, and folds [12800, 128] back to [400, 32, 128]; it multiplies by the block of gathered neighbour
  representations and sums over the middle axis; then two more products with [128, 128] weights, each with a
  bias, `y · logistic y` between them. The narrowings to bf16 in front of every product are the identity on
  the extended reals. Read at `(p, q)` the stored value is node `p`'s output at `q`, a function of slab `p` of
  the two blocks and of the weights.
-/
import proofs.«165855_j30107720745193_1_alg».proof.Proof.Gen.KernelIdeal.Skeleton
import proofs.«165855_j30107720745193_1_alg».proof.Proof.RowSpec
import Idealize.ShloMosaic.Lib.Pipeline.Value
import Idealize.ShloMosaic.Lib.ValueLayout
import Idealize.ShloMosaic.Lib.ValueIdx
import Idealize.ShloMosaic.PureOps.Ideal.Laws

noncomputable section

namespace Cert.Proof.KBlock

open Cert.KernelIdeal Cert.KernelIdeal.Gen
open Idealize.ShloMosaic Idealize.ShloMosaic.ValueIdx Cert.Proof

/-! ## The three matrix products read at an index -/

/-! ### Flattened edge features [12800, 64] times the first filter weight [64, 128] -/

theorem lhs_fw1_0 (i : S12800x128.Idx) (q : dot_S12800x64_S64x128_S12800x128_1_0_0_1_n_n.contr.Idx) :
    (dot_S12800x64_S64x128_S12800x128_1_0_0_1_n_n.lhsIdx i q 0).val = (i 0).val := by
  unfold DotDims.lhsIdx
  rw [dif_neg (show ¬(0 : Fin S12800x64.rank) ∈ dot_S12800x64_S64x128_S12800x128_1_0_0_1_n_n.lhsBatch by decide), dif_pos (show (0 : Fin S12800x64.rank) ∈ dot_S12800x64_S64x128_S12800x128_1_0_0_1_n_n.lhsNonContracting by decide)]
  rfl
theorem lhs_fw1_1 (i : S12800x128.Idx) (q : dot_S12800x64_S64x128_S12800x128_1_0_0_1_n_n.contr.Idx) :
    (dot_S12800x64_S64x128_S12800x128_1_0_0_1_n_n.lhsIdx i q 1).val = (q ⟨0, by decide⟩).val :=
  dot_S12800x64_S64x128_S12800x128_1_0_0_1_n_n.lhsIdx_val_of_single rfl i q
theorem rhs_fw1_0 (i : S12800x128.Idx) (q : dot_S12800x64_S64x128_S12800x128_1_0_0_1_n_n.contr.Idx) :
    (dot_S12800x64_S64x128_S12800x128_1_0_0_1_n_n.rhsIdx i q 0).val = (q ⟨0, by decide⟩).val :=
  dot_S12800x64_S64x128_S12800x128_1_0_0_1_n_n.rhsIdx_val_of_single rfl i q
theorem rhs_fw1_1 (i : S12800x128.Idx) (q : dot_S12800x64_S64x128_S12800x128_1_0_0_1_n_n.contr.Idx) :
    (dot_S12800x64_S64x128_S12800x128_1_0_0_1_n_n.rhsIdx i q 1).val = (i 1).val := by
  unfold DotDims.rhsIdx
  rw [dif_neg (show ¬(1 : Fin S64x128.rank) ∈ dot_S12800x64_S64x128_S12800x128_1_0_0_1_n_n.rhsBatch by decide), dif_pos (show (1 : Fin S64x128.rank) ∈ dot_S12800x64_S64x128_S12800x128_1_0_0_1_n_n.rhsNonContracting by decide)]
  rfl

/-- Into the zero accumulator, entry `(r, c)` of the product is `∑ k, a (r, k) · b (k, c)`. -/
theorem matmul_fw1 (a : FVec Ideal S12800x64 .bf16) (b : FVec Ideal S64x128 .bf16) (r : Fin 12800) (c : Fin 128) :
    matmul dot_S12800x64_S64x128_S12800x128_1_0_0_1_n_n none a b (constant S12800x128 .f32 0x00000000#32) (ix2 r c)
      = ∑ k : Fin 64, a (ix2 r k) * b (ix2 k c) := by
  simp only [matmul]
  rw [Ideal.matmul_constant_zero_apply, ← Equiv.sum_comp (ValueIdx.contrEquiv1 dot_S12800x64_S64x128_S12800x128_1_0_0_1_n_n 64 rfl rfl).symm]
  refine Finset.sum_congr rfl fun k _ => ?_
  have hk := ValueIdx.contrEquiv1_symm_val dot_S12800x64_S64x128_S12800x128_1_0_0_1_n_n 64 rfl rfl k
  have el : dot_S12800x64_S64x128_S12800x128_1_0_0_1_n_n.lhsIdx (ix2 r c) ((ValueIdx.contrEquiv1 dot_S12800x64_S64x128_S12800x128_1_0_0_1_n_n 64 rfl rfl).symm k) = ix2 r k := funext fun d => Fin.ext (by
    match d with
    | ⟨0, _⟩ => exact lhs_fw1_0 _ _
    | ⟨1, _⟩ => exact (lhs_fw1_1 _ _).trans hk)
  have er : dot_S12800x64_S64x128_S12800x128_1_0_0_1_n_n.rhsIdx (ix2 r c) ((ValueIdx.contrEquiv1 dot_S12800x64_S64x128_S12800x128_1_0_0_1_n_n 64 rfl rfl).symm k) = ix2 k c := funext fun d => Fin.ext (by
    match d with
    | ⟨0, _⟩ => exact (rhs_fw1_0 _ _).trans hk
    | ⟨1, _⟩ => exact rhs_fw1_1 _ _)
  rw [el, er]

/-! ### Hidden layer [12800, 128] times the second filter weight [128, 128] -/

theorem lhs_fw2_0 (i : S12800x128.Idx) (q : dot_S12800x128_S128x128_S12800x128_1_0_0_1_n_n.contr.Idx) :
    (dot_S12800x128_S128x128_S12800x128_1_0_0_1_n_n.lhsIdx i q 0).val = (i 0).val := by
  unfold DotDims.lhsIdx
  rw [dif_neg (show ¬(0 : Fin S12800x128.rank) ∈ dot_S12800x128_S128x128_S12800x128_1_0_0_1_n_n.lhsBatch by decide), dif_pos (show (0 : Fin S12800x128.rank) ∈ dot_S12800x128_S128x128_S12800x128_1_0_0_1_n_n.lhsNonContracting by decide)]
  rfl
theorem lhs_fw2_1 (i : S12800x128.Idx) (q : dot_S12800x128_S128x128_S12800x128_1_0_0_1_n_n.contr.Idx) :
    (dot_S12800x128_S128x128_S12800x128_1_0_0_1_n_n.lhsIdx i q 1).val = (q ⟨0, by decide⟩).val :=
  dot_S12800x128_S128x128_S12800x128_1_0_0_1_n_n.lhsIdx_val_of_single rfl i q
theorem rhs_fw2_0 (i : S12800x128.Idx) (q : dot_S12800x128_S128x128_S12800x128_1_0_0_1_n_n.contr.Idx) :
    (dot_S12800x128_S128x128_S12800x128_1_0_0_1_n_n.rhsIdx i q 0).val = (q ⟨0, by decide⟩).val :=
  dot_S12800x128_S128x128_S12800x128_1_0_0_1_n_n.rhsIdx_val_of_single rfl i q
theorem rhs_fw2_1 (i : S12800x128.Idx) (q : dot_S12800x128_S128x128_S12800x128_1_0_0_1_n_n.contr.Idx) :
    (dot_S12800x128_S128x128_S12800x128_1_0_0_1_n_n.rhsIdx i q 1).val = (i 1).val := by
  unfold DotDims.rhsIdx
  rw [dif_neg (show ¬(1 : Fin S128x128.rank) ∈ dot_S12800x128_S128x128_S12800x128_1_0_0_1_n_n.rhsBatch by decide), dif_pos (show (1 : Fin S128x128.rank) ∈ dot_S12800x128_S128x128_S12800x128_1_0_0_1_n_n.rhsNonContracting by decide)]
  rfl

/-- Into the zero accumulator, entry `(r, c)` of the product is `∑ k, a (r, k) · b (k, c)`. -/
theorem matmul_fw2 (a : FVec Ideal S12800x128 .bf16) (b : FVec Ideal S128x128 .bf16) (r : Fin 12800) (c : Fin 128) :
    matmul dot_S12800x128_S128x128_S12800x128_1_0_0_1_n_n none a b (constant S12800x128 .f32 0x00000000#32) (ix2 r c)
      = ∑ k : Fin 128, a (ix2 r k) * b (ix2 k c) := by
  simp only [matmul]
  rw [Ideal.matmul_constant_zero_apply, ← Equiv.sum_comp (ValueIdx.contrEquiv1 dot_S12800x128_S128x128_S12800x128_1_0_0_1_n_n 128 rfl rfl).symm]
  refine Finset.sum_congr rfl fun k _ => ?_
  have hk := ValueIdx.contrEquiv1_symm_val dot_S12800x128_S128x128_S12800x128_1_0_0_1_n_n 128 rfl rfl k
  have el : dot_S12800x128_S128x128_S12800x128_1_0_0_1_n_n.lhsIdx (ix2 r c) ((ValueIdx.contrEquiv1 dot_S12800x128_S128x128_S12800x128_1_0_0_1_n_n 128 rfl rfl).symm k) = ix2 r k := funext fun d => Fin.ext (by
    match d with
    | ⟨0, _⟩ => exact lhs_fw2_0 _ _
    | ⟨1, _⟩ => exact (lhs_fw2_1 _ _).trans hk)
  have er : dot_S12800x128_S128x128_S12800x128_1_0_0_1_n_n.rhsIdx (ix2 r c) ((ValueIdx.contrEquiv1 dot_S12800x128_S128x128_S12800x128_1_0_0_1_n_n 128 rfl rfl).symm k) = ix2 k c := funext fun d => Fin.ext (by
    match d with
    | ⟨0, _⟩ => exact (rhs_fw2_0 _ _).trans hk
    | ⟨1, _⟩ => exact rhs_fw2_1 _ _)
  rw [el, er]

/-! ### A [400, 128] block times an update weight [128, 128] -/

theorem lhs_uw_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_uw_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_uw_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_uw_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Into the zero accumulator, entry `(r, c)` of the product is `∑ k, a (r, k) · b (k, c)`. -/
theorem matmul_uw (a : FVec Ideal S400x128 .bf16) (b : FVec Ideal S128x128 .bf16) (r : Fin 400) (c : Fin 128) :
    matmul dot_S400x128_S128x128_S400x128_1_0_0_1_n_n none a b (constant S400x128 .f32 0x00000000#32) (ix2 r c)
      = ∑ k : Fin 128, a (ix2 r k) * b (ix2 k c) := by
  simp only [matmul]
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 r c) ((ValueIdx.contrEquiv1 dot_S400x128_S128x128_S400x128_1_0_0_1_n_n 128 rfl rfl).symm k) = ix2 r k := funext fun d => Fin.ext (by
    match d with
    | ⟨0, _⟩ => exact lhs_uw_0 _ _
    | ⟨1, _⟩ => exact (lhs_uw_1 _ _).trans hk)
  have er : dot_S400x128_S128x128_S400x128_1_0_0_1_n_n.rhsIdx (ix2 r c) ((ValueIdx.contrEquiv1 dot_S400x128_S128x128_S400x128_1_0_0_1_n_n 128 rfl rfl).symm k) = ix2 k c := funext fun d => Fin.ext (by
    match d with
    | ⟨0, _⟩ => exact (rhs_uw_0 _ _).trans hk
    | ⟨1, _⟩ => exact rhs_uw_1 _ _)
  rw [el, er]

/-! ## Re-layings read at an index -/

/-- Row `p · 32 + a` of the flattened block: neighbour `a` of node `p`. -/
def row (p : Fin 400) (a : Fin 32) : Fin 12800 := ⟨p.val * 32 + a.val, by omega⟩

/-- [400, 32, 64] flattened to [12800, 64]: row `p · 32 + a`, column `f` is entry `(p, a, f)`. -/
theorem flatten_apply {α : Type} (x : S400x32x64.Idx → α) (p : Fin 400) (a : Fin 32) (f : Fin 64) :
    shapeCast S12800x64 x shapeCasts_S400x32x64_S12800x64 (ix2 (row p a) f) = x (ix3 p a f) :=
  shapeCast_apply x shapeCasts_S400x32x64_S12800x64 _ _ (by
    show ((⟨3, ![400, 32, 64]⟩ : Shape).rowMajor (ix3 p a f)).val = ((⟨2, ![12800, 64]⟩ : Shape).rowMajor (ix2 (row p a) f)).val
    rw [Shape.rowMajor_val_three, Shape.rowMajor_val_two]
    rfl)

/-- [12800, 128] folded to [400, 32, 128]: entry `(p, a, j)` is row `p · 32 + a`, column `j`. -/
theorem fold_apply {α : Type} (y : S12800x128.Idx → α) (p : Fin 400) (a : Fin 32) (j : Fin 128) :
    shapeCast S400x32x128 y shapeCasts_S12800x128_S400x32x128 (ix3 p a j) = y (ix2 (row p a) j) :=
  shapeCast_apply y shapeCasts_S12800x128_S400x32x128 _ _ (by
    show ((⟨2, ![12800, 128]⟩ : Shape).rowMajor (ix2 (row p a) j)).val = ((⟨3, ![400, 32, 128]⟩ : Shape).rowMajor (ix3 p a j)).val
    rw [Shape.rowMajor_val_three, Shape.rowMajor_val_two]
    rfl)

/-- A bias [128] laid as one row and repeated down 12800 rows reads, at `(r, k)`, the bias at `k`. -/
theorem bias_flat (v : FVec Ideal S128 .f32) (r : Fin 12800) (k : Fin 128) :
    broadcastTo S12800x128 (shapeCast S1x128 v shapeCasts_S128_S1x128) broadcasts_S1x128_S12800x128 (ix2 r k) = v (ix1 k) :=
  (broadcastTo_1b_ab_apply _ broadcasts_S1x128_S12800x128 r k).trans (shapeCast_a_1a_apply v shapeCasts_S128_S1x128 0 k)

/-- The same down 400 rows. -/
theorem bias_node (v : FVec Ideal S128 .f32) (p : Fin 400) (k : Fin 128) :
    broadcastTo S400x128 (shapeCast S1x128 v shapeCasts_S128_S1x128) broadcasts_S1x128_S400x128 (ix2 p k) = v (ix1 k) :=
  (broadcastTo_1b_ab_apply _ broadcasts_S1x128_S400x128 p k).trans (shapeCast_a_1a_apply v shapeCasts_S128_S1x128 0 k)

/-! ## The body's value in five stages -/

/-- First filter layer before its activation, on the flattened rows. -/
def pre1 (v0 : FVec Ideal S400x32x64 .f32) (v3 : FVec Ideal S64x128 .f32) (v6 : FVec Ideal S128 .f32) : FVec Ideal S12800x128 .f32 :=
  addf (matmul dot_S12800x64_S64x128_S12800x128_1_0_0_1_n_n none (shapeCast S12800x64 (truncf .bf16 v0 bitsLt_bf16_f32) shapeCasts_S400x32x64_S12800x64)
      (truncf .bf16 v3 bitsLt_bf16_f32) (constant S12800x128 .f32 0x00000000#32))
    (broadcastTo S12800x128 (shapeCast S1x128 v6 shapeCasts_S128_S1x128) broadcasts_S1x128_S12800x128)

/-- First filter layer: `y · logistic y` of `pre1`. -/
def hid (v0 : FVec Ideal S400x32x64 .f32) (v3 : FVec Ideal S64x128 .f32) (v6 : FVec Ideal S128 .f32) : FVec Ideal S12800x128 .f32 :=
  mulf (pre1 v0 v3 v6) (logistic (pre1 v0 v3 v6))

/-- Second filter layer, folded back to one filter per node and neighbour. -/
def fil (h : FVec Ideal S12800x128 .f32) (v13 : FVec Ideal S128x128 .f32) (v16 : FVec Ideal S128 .f32) : FVec Ideal S400x32x128 .f32 :=
  shapeCast S400x32x128
    (addf (matmul dot_S12800x128_S128x128_S12800x128_1_0_0_1_n_n none (truncf .bf16 h bitsLt_bf16_f32) (truncf .bf16 v13 bitsLt_bf16_f32) (constant S12800x128 .f32 0x00000000#32))
      (broadcastTo S12800x128 (shapeCast S1x128 v16 shapeCasts_S128_S1x128) broadcasts_S1x128_S12800x128))
    shapeCasts_S12800x128_S400x32x128

/-- The message: neighbour representations times filters, summed over the neighbour axis. -/
def msg (fl : FVec Ideal S400x32x128 .f32) (v21 : FVec Ideal S400x32x128 .f32) : FVec Ideal S400x128 .f32 :=
  multiReduction .add [1] S400x128 (mulf (shapeCast S400x32x128 v21 shapeCasts_S400x32x128_S400x32x128) fl) 0x00000000#32
    reduces_S400x32x128_S400x128 (.inl rfl) rfl

/-- First update layer before its activation. -/
def pre2 (ms : FVec Ideal S400x128 .f32) (v26 : FVec Ideal S128x128 .f32) (v29 : FVec Ideal S128 .f32) : FVec Ideal S400x128 .f32 :=
  addf (matmul dot_S400x128_S128x128_S400x128_1_0_0_1_n_n none (truncf .bf16 ms bitsLt_bf16_f32) (truncf .bf16 v26 bitsLt_bf16_f32) (constant S400x128 .f32 0x00000000#32))
    (broadcastTo S400x128 (shapeCast S1x128 v29 shapeCasts_S128_S1x128) broadcasts_S1x128_S400x128)

/-- First update layer: `y · logistic y` of `pre2`. -/
def upd (ms : FVec Ideal S400x128 .f32) (v26 : FVec Ideal S128x128 .f32) (v29 : FVec Ideal S128 .f32) : FVec Ideal S400x128 .f32 :=
  mulf (pre2 ms v26 v29) (logistic (pre2 ms v26 v29))

/-- Second update layer: the stored block. -/
def fin (u : FVec Ideal S400x128 .f32) (v36 : FVec Ideal S128x128 .f32) (v39 : FVec Ideal S128 .f32) : FVec Ideal S400x128 .f32 :=
  addf (matmul dot_S400x128_S128x128_S400x128_1_0_0_1_n_n none (truncf .bf16 u bitsLt_bf16_f32) (truncf .bf16 v36 bitsLt_bf16_f32) (constant S400x128 .f32 0x00000000#32))
    (broadcastTo S400x128 (shapeCast S1x128 v39 shapeCasts_S128_S1x128) broadcasts_S1x128_S400x128)

section stages

variable (v0 : FVec Ideal S400x32x64 .f32) (v3 : FVec Ideal S64x128 .f32) (v6 : FVec Ideal S128 .f32)
  (v13 : FVec Ideal S128x128 .f32) (v16 : FVec Ideal S128 .f32) (v21 : FVec Ideal S400x32x128 .f32)
  (v26 : FVec Ideal S128x128 .f32) (v29 : FVec Ideal S128 .f32) (v36 : FVec Ideal S128x128 .f32) (v39 : FVec Ideal S128 .f32)

/-- The body's stored value is the five stages composed: the same operations, named. -/
theorem pay_eq :
    k0_pay1 (F := Ideal) (k0_pay2 (F := Ideal) v0 v3 v6 v13 v16 v21 v26 v29) (k0_pay3 (F := Ideal) v36) v39
      = fin (upd (msg (fil (hid v0 v3 v6) v13 v16) v21) v26 v29) v36 v39 := rfl

theorem pre1_apply (p : Fin 400) (a : Fin 32) (k : Fin 128) :
    pre1 v0 v3 v6 (ix2 (row p a) k) = (∑ f : Fin 64, v0 (ix3 p a f) * v3 (ix2 f k)) + v6 (ix1 k) := by
  unfold pre1
  refine congrArg₂ (· + ·) ((matmul_fw1 _ _ (row p a) k).trans (Finset.sum_congr rfl fun f _ => ?_)) (bias_flat v6 (row p a) k)
  exact congrArg₂ (· * ·) (flatten_apply _ p a f) rfl

theorem hid_apply (p : Fin 400) (a : Fin 32) (k : Fin 128) :
    hid v0 v3 v6 (ix2 (row p a) k) = Row.hidden (Row.mat v3) (Row.vec v6) (Row.slab v0 p) a k :=
  (Row.silu_kernel _).trans (congrArg Row.silu (pre1_apply v0 v3 v6 p a k))

theorem fil_apply (h : FVec Ideal S12800x128 .f32) (p : Fin 400) (a : Fin 32) (j : Fin 128) :
    fil h v13 v16 (ix3 p a j) = (∑ k : Fin 128, h (ix2 (row p a) k) * v13 (ix2 k j)) + v16 (ix1 j) := by
  unfold fil
  refine (fold_apply _ p a j).trans ?_
  exact congrArg₂ (· + ·) (matmul_fw2 _ _ (row p a) j) (bias_flat v16 (row p a) j)

theorem filt_apply (p : Fin 400) (a : Fin 32) (j : Fin 128) :
    fil (hid v0 v3 v6) v13 v16 (ix3 p a j)
      = Row.filt (Row.mat v3) (Row.vec v6) (Row.mat v13) (Row.vec v16) (Row.slab v0 p) a j :=
  (fil_apply v13 v16 _ p a j).trans
    (congrArg (· + v16 (ix1 j)) (Finset.sum_congr rfl fun k _ => congrArg₂ (· * ·) (hid_apply v0 v3 v6 p a k) rfl))

theorem msg_apply (fl : FVec Ideal S400x32x128 .f32) (p : Fin 400) (j : Fin 128) :
    msg fl v21 (ix2 p j) = ∑ a : Fin 32, v21 (ix3 p a j) * fl (ix3 p a j) := by
  unfold msg
  refine (Ideal.multiReduction_add_single _ 0x00000000#32 reduces_S400x32x128_S400x128 (.inl rfl) rfl (ix2 p j)).trans ?_
  refine Finset.sum_congr rfl fun a _ => ?_
  have e : reduces_S400x32x128_S400x128.lift (ix2 p j) a = ix3 p a j :=
    funext fun d => Fin.ext (by match d with | ⟨0, _⟩ => rfl | ⟨1, _⟩ => rfl | ⟨2, _⟩ => rfl)
  rw [e, shapeCast_self]
  rfl

theorem message_apply (p : Fin 400) (j : Fin 128) :
    msg (fil (hid v0 v3 v6) v13 v16) v21 (ix2 p j)
      = Row.message (Row.mat v3) (Row.vec v6) (Row.mat v13) (Row.vec v16) (Row.slab v0 p) (Row.slab v21 p) j :=
  (msg_apply v21 _ p j).trans (Finset.sum_congr rfl fun a _ => congrArg₂ (· * ·) rfl (filt_apply v0 v3 v6 v13 v16 p a j))

theorem pre2_apply (ms : FVec Ideal S400x128 .f32) (p : Fin 400) (k : Fin 128) :
    pre2 ms v26 v29 (ix2 p k) = (∑ j : Fin 128, ms (ix2 p j) * v26 (ix2 j k)) + v29 (ix1 k) := by
  unfold pre2
  exact congrArg₂ (· + ·) (matmul_uw _ _ p k) (bias_node v29 p k)

theorem update_apply (p : Fin 400) (k : Fin 128) :
    upd (msg (fil (hid v0 v3 v6) v13 v16) v21) v26 v29 (ix2 p k)
      = Row.update (Row.mat v3) (Row.vec v6) (Row.mat v13) (Row.vec v16) (Row.mat v26) (Row.vec v29) (Row.slab v0 p) (Row.slab v21 p) k :=
  (Row.silu_kernel _).trans (congrArg Row.silu ((pre2_apply v26 v29 _ p k).trans
    (congrArg (· + v29 (ix1 k)) (Finset.sum_congr rfl fun j _ => congrArg₂ (· * ·) (message_apply v0 v3 v6 v13 v16 v21 p j) rfl))))

theorem fin_apply (u : FVec Ideal S400x128 .f32) (p : Fin 400) (h : Fin 128) :
    fin u v36 v39 (ix2 p h) = (∑ k : Fin 128, u (ix2 p k) * v36 (ix2 k h)) + v39 (ix1 h) := by
  unfold fin
  exact congrArg₂ (· + ·) (matmul_uw _ _ p h) (bias_node v39 p h)

/-- What the body stores, at `(p, q)`: node `p`'s output at `q`, from slab `p` of the two blocks. -/
theorem pay_apply (p : Fin 400) (q : Fin 128) :
    k0_pay1 (F := Ideal) (k0_pay2 (F := Ideal) v0 v3 v6 v13 v16 v21 v26 v29) (k0_pay3 (F := Ideal) v36) v39 (ix2 p q)
      = Row.out (Row.mat v3) (Row.vec v6) (Row.mat v13) (Row.vec v16) (Row.mat v26) (Row.vec v29) (Row.mat v36) (Row.vec v39)
          (Row.slab v0 p) (Row.slab v21 p) q := by
  rw [pay_eq]
  exact (fin_apply v36 v39 _ p q).trans
    (congrArg (· + v39 (ix1 q)) (Finset.sum_congr rfl fun k _ => congrArg₂ (· * ·) (update_apply v0 v3 v6 v13 v16 v21 v26 v29 p k) rfl))

end stages

end Cert.Proof.KBlock

end
-- ==== Proof.BlockToArray.lean ====
/-
  From the 125 grid points to the whole output array.

  Grid point `t` works on nodes `400 t … 400 t + 399`: the edge-feature window and the gathered-neighbour window
  are at block `(t, 0, 0)` of their arrays, the output window at block `(t, 0)`, and the eight weight windows
  at their one block. So an entry `(p, a, f)` of a node-tiled block is entry `(400 t + p, a, f)` of its array, a
  weight block is the weight, and what point `t` writes back (KernelBlock: node `p`'s output from slab `p` of
  the blocks) is block `t` of `result`, the per-node function over the arrays as the region finds them. Row
  `r` of the output lies in the block of point `r / 400`, so the 125 blocks cover the array and it ends holding
  `result`.
-/
import proofs.«165855_j30107720745193_1_alg».proof.Proof.Gen.KernelIdeal.Value
import proofs.«165855_j30107720745193_1_alg».proof.Proof.KernelBlock

noncomputable section

namespace Cert.Proof.KArr

open Cert.KernelIdeal Cert.KernelIdeal.Gen
open Idealize.ShloMosaic Idealize.ShloMosaic.TcCoe Idealize.ShloMosaic.ValueIdx Idealize.SL.Sem Cert.Proof
open Idealize.ShloMosaic.Pipeline (Dat)

variable (m : (ℓ : Loc nD τ sig) → Buf (Elt Ideal) ℓ) (ρ : Dev nD → PrngReg)

/-! ## The arrays as the region finds them, and the blocks, at their literal types -/

abbrev arrX (c : Dev nD) : FVec Ideal S50000x32x64 .f32 := V m c main_arg1
abbrev arrNb (c : Dev nD) : FVec Ideal S50000x32x128 .f32 := V m c main_v6
abbrev arrW1 (c : Dev nD) : FVec Ideal S64x128 .f32 := V m c main_arg3
abbrev arrB1 (c : Dev nD) : FVec Ideal S128 .f32 := V m c main_arg4
abbrev arrW2 (c : Dev nD) : FVec Ideal S128x128 .f32 := V m c main_arg5
abbrev arrB2 (c : Dev nD) : FVec Ideal S128 .f32 := V m c main_arg6
abbrev arrU1 (c : Dev nD) : FVec Ideal S128x128 .f32 := V m c main_arg7
abbrev arrC1 (c : Dev nD) : FVec Ideal S128 .f32 := V m c main_arg8
abbrev arrU2 (c : Dev nD) : FVec Ideal S128x128 .f32 := V m c main_arg9
abbrev arrC2 (c : Dev nD) : FVec Ideal S128 .f32 := V m c main_arg10

abbrev blkX (c : Dev nD) (t : Fin cfg0.N) : FVec Ideal S400x32x64 .f32 := iblk m c 0 t
abbrev blkNb (c : Dev nD) (t : Fin cfg0.N) : FVec Ideal S400x32x128 .f32 := iblk m c 1 t
abbrev blkW1 (c : Dev nD) (t : Fin cfg0.N) : FVec Ideal S64x128 .f32 := iblk m c 2 t
abbrev blkB1 (c : Dev nD) (t : Fin cfg0.N) : FVec Ideal S128 .f32 := iblk m c 3 t
abbrev blkW2 (c : Dev nD) (t : Fin cfg0.N) : FVec Ideal S128x128 .f32 := iblk m c 4 t
abbrev blkB2 (c : Dev nD) (t : Fin cfg0.N) : FVec Ideal S128 .f32 := iblk m c 5 t
abbrev blkU1 (c : Dev nD) (t : Fin cfg0.N) : FVec Ideal S128x128 .f32 := iblk m c 6 t
abbrev blkC1 (c : Dev nD) (t : Fin cfg0.N) : FVec Ideal S128 .f32 := iblk m c 7 t
abbrev blkU2 (c : Dev nD) (t : Fin cfg0.N) : FVec Ideal S128x128 .f32 := iblk m c 8 t
abbrev blkC2 (c : Dev nD) (t : Fin cfg0.N) : FVec Ideal S128 .f32 := iblk m c 9 t

/-- The output array after the run: the per-node function of the arrays as the region finds them. -/
def result (c : Dev nD) : FVec Ideal S50000x128 .f32 :=
  Row.G (arrNb m c) (arrX m c) (arrW1 m c) (arrB1 m c) (arrW2 m c) (arrB2 m c) (arrU1 m c) (arrC1 m c) (arrU2 m c) (arrC2 m c)

/-! ## Where each window's block lies -/

/-- The printed index maps over the 125 points: the three node-tiled windows are at block `t` along the node
    axis and block 0 along the others; every weight window is at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-- Node `p` of grid point `t` is node `400 t + p` of the graph. -/
def node (t : Fin cfg0.N) (p : Fin 400) : Fin 50000 :=
  ⟨t.val * 400 + p.val, by have hN : cfg0.N = 125 := N_0; have := t.isLt; have := p.isLt; omega⟩

theorem blkX_apply (c : Dev nD) (t : Fin cfg0.N) (p : Fin 400) (a : Fin 32) (f : Fin 64) :
    blkX m c t (ix3 p a f) = arrX m c (ix3 (node t p) a f) := by
  show V m c main_arg1 (((cfg0.win 0).blk t).view.emb (ix3 p a f)) = V m c main_arg1 (ix3 (node t p) a f)
  obtain ⟨e0, e1, e2, -⟩ := idx_facts t
  refine congrArg _ (funext fun d => Fin.ext ?_)
  match d with
  | ⟨0, _⟩ => show win0_0.index t (0 : Fin 3) * 400 + 1 * p.val = t.val * 400 + p.val; omega
  | ⟨1, _⟩ => show win0_0.index t (1 : Fin 3) * 32 + 1 * a.val = a.val; omega
  | ⟨2, _⟩ => show win0_0.index t (2 : Fin 3) * 64 + 1 * f.val = f.val; omega

theorem blkNb_apply (c : Dev nD) (t : Fin cfg0.N) (p : Fin 400) (a : Fin 32) (j : Fin 128) :
    blkNb m c t (ix3 p a j) = arrNb m c (ix3 (node t p) a j) := by
  show V m c main_v6 (((cfg0.win 1).blk t).view.emb (ix3 p a j)) = V m c main_v6 (ix3 (node t p) a j)
  obtain ⟨-, -, -, e0, e1, e2, -⟩ := idx_facts t
  refine congrArg _ (funext fun d => Fin.ext ?_)
  match d with
  | ⟨0, _⟩ => show win0_1.index t (0 : Fin 3) * 400 + 1 * p.val = t.val * 400 + p.val; omega
  | ⟨1, _⟩ => show win0_1.index t (1 : Fin 3) * 32 + 1 * a.val = a.val; omega
  | ⟨2, _⟩ => show win0_1.index t (2 : Fin 3) * 128 + 1 * j.val = j.val; omega

theorem blkW1_apply (c : Dev nD) (t : Fin cfg0.N) (f : Fin 64) (k : Fin 128) : blkW1 m c t (ix2 f k) = arrW1 m c (ix2 f k) := by
  show V m c main_arg3 (((cfg0.win 2).blk t).view.emb (ix2 f k)) = V m c main_arg3 (ix2 f k)
  obtain ⟨-, -, -, -, -, -, e0, e1, -⟩ := idx_facts t
  refine congrArg _ (funext fun d => Fin.ext ?_)
  match d with
  | ⟨0, _⟩ => show win0_2.index t (0 : Fin 2) * 64 + 1 * f.val = f.val; omega
  | ⟨1, _⟩ => show win0_2.index t (1 : Fin 2) * 128 + 1 * k.val = k.val; omega

theorem blkB1_apply (c : Dev nD) (t : Fin cfg0.N) (k : Fin 128) : blkB1 m c t (ix1 k) = arrB1 m c (ix1 k) := by
  show V m c main_arg4 (((cfg0.win 3).blk t).view.emb (ix1 k)) = V m c main_arg4 (ix1 k)
  obtain ⟨-, -, -, -, -, -, -, -, e0, -⟩ := idx_facts t
  refine congrArg _ (funext fun d => Fin.ext ?_)
  match d with
  | ⟨0, _⟩ => show win0_3.index t (0 : Fin 1) * 128 + 1 * k.val = k.val; omega

theorem blkW2_apply (c : Dev nD) (t : Fin cfg0.N) (k : Fin 128) (j : Fin 128) : blkW2 m c t (ix2 k j) = arrW2 m c (ix2 k j) := by
  show V m c main_arg5 (((cfg0.win 4).blk t).view.emb (ix2 k j)) = V m c main_arg5 (ix2 k j)
  obtain ⟨-, -, -, -, -, -, -, -, -, e0, e1, -⟩ := idx_facts t
  refine congrArg _ (funext fun d => Fin.ext ?_)
  match d with
  | ⟨0, _⟩ => show win0_4.index t (0 : Fin 2) * 128 + 1 * k.val = k.val; omega
  | ⟨1, _⟩ => show win0_4.index t (1 : Fin 2) * 128 + 1 * j.val = j.val; omega

theorem blkB2_apply (c : Dev nD) (t : Fin cfg0.N) (k : Fin 128) : blkB2 m c t (ix1 k) = arrB2 m c (ix1 k) := by
  show V m c main_arg6 (((cfg0.win 5).blk t).view.emb (ix1 k)) = V m c main_arg6 (ix1 k)
  obtain ⟨-, -, -, -, -, -, -, -, -, -, -, e0, -⟩ := idx_facts t
  refine congrArg _ (funext fun d => Fin.ext ?_)
  match d with
  | ⟨0, _⟩ => show win0_5.index t (0 : Fin 1) * 128 + 1 * k.val = k.val; omega

theorem blkU1_apply (c : Dev nD) (t : Fin cfg0.N) (k : Fin 128) (j : Fin 128) : blkU1 m c t (ix2 k j) = arrU1 m c (ix2 k j) := by
  show V m c main_arg7 (((cfg0.win 6).blk t).view.emb (ix2 k j)) = V m c main_arg7 (ix2 k j)
  obtain ⟨-, -, -, -, -, -, -, -, -, -, -, -, e0, e1, -⟩ := idx_facts t
  refine congrArg _ (funext fun d => Fin.ext ?_)
  match d with
  | ⟨0, _⟩ => show win0_6.index t (0 : Fin 2) * 128 + 1 * k.val = k.val; omega
  | ⟨1, _⟩ => show win0_6.index t (1 : Fin 2) * 128 + 1 * j.val = j.val; omega

theorem blkC1_apply (c : Dev nD) (t : Fin cfg0.N) (k : Fin 128) : blkC1 m c t (ix1 k) = arrC1 m c (ix1 k) := by
  show V m c main_arg8 (((cfg0.win 7).blk t).view.emb (ix1 k)) = V m c main_arg8 (ix1 k)
  obtain ⟨-, -, -, -, -, -, -, -, -, -, -, -, -, -, e0, -⟩ := idx_facts t
  refine congrArg _ (funext fun d => Fin.ext ?_)
  match d with
  | ⟨0, _⟩ => show win0_7.index t (0 : Fin 1) * 128 + 1 * k.val = k.val; omega

theorem blkU2_apply (c : Dev nD) (t : Fin cfg0.N) (k : Fin 128) (j : Fin 128) : blkU2 m c t (ix2 k j) = arrU2 m c (ix2 k j) := by
  show V m c main_arg9 (((cfg0.win 8).blk t).view.emb (ix2 k j)) = V m c main_arg9 (ix2 k j)
  obtain ⟨-, -, -, -, -, -, -, -, -, -, -, -, -, -, -, e0, e1, -⟩ := idx_facts t
  refine congrArg _ (funext fun d => Fin.ext ?_)
  match d with
  | ⟨0, _⟩ => show win0_8.index t (0 : Fin 2) * 128 + 1 * k.val = k.val; omega
  | ⟨1, _⟩ => show win0_8.index t (1 : Fin 2) * 128 + 1 * j.val = j.val; omega

theorem blkC2_apply (c : Dev nD) (t : Fin cfg0.N) (k : Fin 128) : blkC2 m c t (ix1 k) = arrC2 m c (ix1 k) := by
  show V m c main_arg10 (((cfg0.win 9).blk t).view.emb (ix1 k)) = V m c main_arg10 (ix1 k)
  obtain ⟨-, -, -, -, -, -, -, -, -, -, -, -, -, -, -, -, -, e0, -⟩ := idx_facts t
  refine congrArg _ (funext fun d => Fin.ext ?_)
  match d with
  | ⟨0, _⟩ => show win0_9.index t (0 : Fin 1) * 128 + 1 * k.val = k.val; omega

/-! ## What a point writes back -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Point `t`'s stored block at `(p, q)` is `result` at `(400 t + p, q)`: the blocks' slabs are the arrays' slabs
    of node `400 t + p`, the weight blocks the weights. -/
theorem stored_apply (c : Dev nD) (t : Fin cfg0.N) (p : Fin 400) (q : Fin 128) :
    k0_pay1 (F := Ideal) (k0_pay2 (F := Ideal) (blkX m c t) (blkW1 m c t) (blkB1 m c t) (blkW2 m c t) (blkB2 m c t) (blkNb m c t) (blkU1 m c t) (blkC1 m c t))
        (k0_pay3 (F := Ideal) (blkU2 m c t)) (blkC2 m c t) (ix2 p q)
      = result m c (ix2 (node t p) q) := by
  refine (KBlock.pay_apply (blkX m c t) (blkW1 m c t) (blkB1 m c t) (blkW2 m c t) (blkB2 m c t) (blkNb m c t) (blkU1 m c t) (blkC1 m c t)
    (blkU2 m c t) (blkC2 m c t) p q).trans ?_
  unfold result
  rw [Row.G_ix2]
  have hW1 : Row.mat (blkW1 m c t) = Row.mat (arrW1 m c) := funext fun f => funext fun k => blkW1_apply m c t f k
  have hB1 : Row.vec (blkB1 m c t) = Row.vec (arrB1 m c) := funext fun k => blkB1_apply m c t k
  have hW2 : Row.mat (blkW2 m c t) = Row.mat (arrW2 m c) := funext fun k => funext fun j => blkW2_apply m c t k j
  have hB2 : Row.vec (blkB2 m c t) = Row.vec (arrB2 m c) := funext fun k => blkB2_apply m c t k
  have hU1 : Row.mat (blkU1 m c t) = Row.mat (arrU1 m c) := funext fun k => funext fun j => blkU1_apply m c t k j
  have hC1 : Row.vec (blkC1 m c t) = Row.vec (arrC1 m c) := funext fun k => blkC1_apply m c t k
  have hU2 : Row.mat (blkU2 m c t) = Row.mat (arrU2 m c) := funext fun k => funext fun j => blkU2_apply m c t k j
  have hC2 : Row.vec (blkC2 m c t) = Row.vec (arrC2 m c) := funext fun k => blkC2_apply m c t k
  have hX : Row.slab (blkX m c t) p = Row.slab (arrX m c) (node t p) := funext fun a => funext fun f => blkX_apply m c t p a f
  have hNb : Row.slab (blkNb m c t) p = Row.slab (arrNb m c) (node t p) := funext fun a => funext fun j => blkNb_apply m c t p a j
  rw [hW1, hB1, hW2, hB2, hU1, hC1, hU2, hC2, hX, hNb]

/-- WHAT POINT `t` WRITES BACK is block `t` of `result`. -/
theorem flushed_eq (c : Dev nD) (t : Fin cfg0.N) :
    (dats m 0 c).flushed 10 t = ((cfg0.win 10).blk t).view.read (Elt Ideal) (result m c) := by
  rw [Cert.KernelIdeal.Value.flushed10]
  unfold out0_10
  rw [View.canon_unit_zero hz2]
  simp only [View.ld_unit_zero (S := S400x32x64) hz3, View.ld_unit_zero (S := S400x32x128) hz3, View.ld_unit_zero (S := S64x128) hz2,
    View.ld_unit_zero (S := S128x128) hz2, View.ld_unit_zero (S := S128) hz1]
  funext y
  obtain ⟨p, q, rfl⟩ : ∃ (p : Fin 400) (q : Fin 128), y = ix2 p q := ⟨y 0, y 1, eq_ix2 y⟩
  refine (stored_apply m c t p q).trans ?_
  show result m c (ix2 (node t p) q) = result m c (((cfg0.win 10).blk t).view.emb (ix2 p q))
  obtain ⟨-, -, -, -, -, -, -, -, -, -, -, -, -, -, -, -, -, -, e0, e1⟩ := idx_facts t
  refine congrArg _ (funext fun d => Fin.ext ?_)
  match d with
  | ⟨0, _⟩ => show t.val * 400 + p.val = win0_10.index t (0 : Fin 2) * 400 + 1 * p.val; omega
  | ⟨1, _⟩ => show q.val = win0_10.index t (1 : Fin 2) * 128 + 1 * q.val; omega

/-! ## The blocks cover the array -/

/-- An index of the output array is in point `t`'s block iff each coordinate is in the block's range on its axis. -/
theorem mem_blk (t : Fin cfg0.N) (i : S50000x128.Idx) :
    i ∈ ((cfg0.win 10).blk t).view.set ↔ ∀ a : Fin 2, win0_10.index t a * S400x128.size a ≤ (i a).val ∧ (i a).val < win0_10.index t a * S400x128.size a + S400x128.size a := by
  show i ∈ ((View.whole main_v7).slice (win0_10.rect t)).set ↔ _
  rw [View.set_slice_whole, Rect.mem_set_unit]
  exact Iff.rfl

/-- Row `r` of the output is in the block of point `r / 400`. -/
theorem cover (i : S50000x128.Idx) : ∃ t : Fin cfg0.N, (cfg0.win 10).flush t = true ∧ i ∈ ((cfg0.win 10).blk t).view.set := by
  have hN : cfg0.N = 125 := N_0
  have hi0 : (i 0).val < 50000 := (i 0).isLt
  have hi1 : (i 1).val < 128 := (i 1).isLt
  refine ⟨⟨(i 0).val / 400, by omega⟩, flush0_10 _, ?_⟩
  rw [mem_blk]
  obtain ⟨-, -, -, -, -, -, -, -, -, -, -, -, -, -, -, -, -, -, e0, e1⟩ := idx_facts ⟨(i 0).val / 400, by omega⟩
  intro a
  match a with
  | ⟨0, _⟩ =>
    show win0_10.index ⟨(i 0).val / 400, _⟩ (0 : Fin 2) * 400 ≤ (i 0).val ∧ (i 0).val < win0_10.index ⟨(i 0).val / 400, _⟩ (0 : Fin 2) * 400 + 400
    rw [e0]; show (i 0).val / 400 * 400 ≤ (i 0).val ∧ (i 0).val < (i 0).val / 400 * 400 + 400; omega
  | ⟨1, _⟩ =>
    show win0_10.index ⟨(i 0).val / 400, _⟩ (1 : Fin 2) * 128 ≤ (i 1).val ∧ (i 1).val < win0_10.index ⟨(i 0).val / 400, _⟩ (1 : Fin 2) * 128 + 128
    rw [e1]; omega

/-- THE ARRAY after the run is `result`. -/
theorem final (c : Dev nD) : (dats m 0 c).arrAt 10 cfg0.N = result m c :=
  (dats m 0 c).arrAt_eq_of_cover 10 (result m c) (fun t _ => flushed_eq m c t) cover

/-! ## The run, read -/

/-- The frame run with the output array named: `result`, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.Proof.KArr

end
-- ==== Proof.Gathered.lean ====
/-
  Both programs gather the same neighbour rows.

  Before the kernel's one region, @main wraps negative neighbour indices (an index below zero has 50000 added),
  lays the index array out as [50000, 32, 1] and gathers rows of the node table: nine host operations, the same
  nine the reference begins with. So the array the region finds in the gathered-neighbour window is, of the
  same node table and the same indices, the very term the reference multiplies its filters by. Which rows it
  holds is never looked at: the two programs apply one function to equal arguments.
-/
import proofs.«165855_j30107720745193_1_alg».proof.Proof.Gen.KernelIdeal.Frame
import proofs.«165855_j30107720745193_1_alg».proof.Proof.Gen.ReferenceIdeal.Read
import Idealize.ShloMosaic.Lib.StableHlo.Run

noncomputable section

namespace Cert.Proof.Gathered

open Idealize.ShloMosaic Idealize.ShloMosaic.TcCoe Idealize.SL.Sem Idealize.ShloMosaic.StableHlo

/-- The gathered-neighbour array as the region finds it is the reference's gather stage of the node table and
    the index array as launched. -/
theorem nb_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v6 : FVec Ideal Cert.KernelIdeal.S50000x32x128 .f32)
      = Cert.ReferenceIdeal.Read.val_main_v6 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg2)) := by
  dsimp only [Cert.KernelIdeal.Gen.V, Cert.KernelIdeal.Gen.hostOps0]
  after_results
  rfl

end Cert.Proof.Gathered

end
-- ==== Proof.lean ====
/-
  A continuous-filter message-passing block over a graph of 50000 nodes with 32 neighbours each: a fused kernel
  against the plain array program.

  Both programs first gather, for every node and neighbour, the neighbour's 128-dimensional representation from
  the node table (negative indices wrapped), by the same host operations. The kernel then runs over 125 blocks
  of 400 nodes: per block it flattens the [400, 32, 64] edge features to [12800, 64], applies the two-layer
  filter network with SiLU, folds back to [400, 32, 128], multiplies by the gathered representations, sums over
  the 32 neighbours, and applies the two-layer update network with SiLU. The reference does the same over the
  whole [50000, 32, ·] arrays with contractions along the last axis. On the extended reals the kernel's
  narrowings to bf16 are the identity, `logistic y` is `1 / (1 + exp (-y))` exactly as the reference spells it,
  and each matrix product, contraction and neighbour sum is the finite sum of the same products over the same
  index set. So both output arrays are one function `G` (RowSpec) of the gathered array, the edge features and
  the eight weights: entry `(n, h)` depends only on node `n`'s edges and neighbours. No step moves a factor
  across a sum or cancels, so the inputs' finiteness is never used.

  RefIsRow reads the reference stage by stage as that function; KernelBlock reads what one grid point stores;
  BlockToArray lays the 125 stored blocks over the output array; Gathered identifies the two gathers.
-/
import proofs.«165855_j30107720745193_1_alg».proof.Defs
import proofs.«165855_j30107720745193_1_alg».proof.Proof.Gen.Kernel
import proofs.«165855_j30107720745193_1_alg».proof.Proof.Gen.Kernel.Skeleton
import proofs.«165855_j30107720745193_1_alg».proof.Proof.Gen.Kernel.Launch
import proofs.«165855_j30107720745193_1_alg».proof.Proof.Gen.Kernel.Points
import proofs.«165855_j30107720745193_1_alg».proof.Proof.Gen.Kernel.Frame
import proofs.«165855_j30107720745193_1_alg».proof.Proof.Gen.KernelIdeal
import proofs.«165855_j30107720745193_1_alg».proof.Proof.Gen.KernelIdeal.Skeleton
import proofs.«165855_j30107720745193_1_alg».proof.Proof.Gen.KernelIdeal.Launch
import proofs.«165855_j30107720745193_1_alg».proof.Proof.Gen.KernelIdeal.Points
import proofs.«165855_j30107720745193_1_alg».proof.Proof.Gen.KernelIdeal.Frame
import proofs.«165855_j30107720745193_1_alg».proof.Proof.Gen.ReferenceIdeal
import proofs.«165855_j30107720745193_1_alg».proof.Proof.Gen.Pre_finite_inputs
import proofs.«165855_j30107720745193_1_alg».proof.Proof.Gen.KernelIdeal.Value
import proofs.«165855_j30107720745193_1_alg».proof.Proof.Gen.ReferenceIdeal.Run
import proofs.«165855_j30107720745193_1_alg».proof.Proof.Gen.ReferenceIdeal.Read
import proofs.«165855_j30107720745193_1_alg».proof.Proof.RowSpec
import proofs.«165855_j30107720745193_1_alg».proof.Proof.RefIsRow
import proofs.«165855_j30107720745193_1_alg».proof.Proof.KernelBlock
import proofs.«165855_j30107720745193_1_alg».proof.Proof.BlockToArray
import proofs.«165855_j30107720745193_1_alg».proof.Proof.Gathered
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result's value dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the eleven arguments both programs end with the output array at `G` of the
    gathered neighbours, the edge features and the weights. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨KArr.result m, KArr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v26_eq, RefRow.result_eq, h0, h1, h2, h3, h4, h5, h6, h7, h8, h9, h10]
  have eNb : KArr.arrNb m c = _ := Gathered.nb_eq m c
  have eX : KArr.arrX m c = _ := Cert.KernelIdeal.Gen.V_main_arg1 m c
  have eW1 : KArr.arrW1 m c = _ := Cert.KernelIdeal.Gen.V_main_arg3 m c
  have eB1 : KArr.arrB1 m c = _ := Cert.KernelIdeal.Gen.V_main_arg4 m c
  have eW2 : KArr.arrW2 m c = _ := Cert.KernelIdeal.Gen.V_main_arg5 m c
  have eB2 : KArr.arrB2 m c = _ := Cert.KernelIdeal.Gen.V_main_arg6 m c
  have eU1 : KArr.arrU1 m c = _ := Cert.KernelIdeal.Gen.V_main_arg7 m c
  have eC1 : KArr.arrC1 m c = _ := Cert.KernelIdeal.Gen.V_main_arg8 m c
  have eU2 : KArr.arrU2 m c = _ := Cert.KernelIdeal.Gen.V_main_arg9 m c
  have eC2 : KArr.arrC2 m c = _ := Cert.KernelIdeal.Gen.V_main_arg10 m c
  show _ = KArr.result m c
  unfold KArr.result
  rw [eNb, eX, eW1, eB1, eW2, eB2, eU1, eC1, eU2, eC2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
